-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S128x128x8x8 : Shape := ⟨4, ![128, 128, 8, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S128x128x8x8 : S_.BroadcastsInDim S128x128x8x8 (![] : Fin 0 → Fin S128x128x8x8.rank)
  reducesTo_S128x128x8x8_S_d0_1_2_3 : S128x128x8x8.ReducesTo [0, 1, 2, 3] S_

variable [Facts]

def fn {F : FTy → Type} [FloatOps F] (main_arg0 : FVec F S16384x1024 .f32) (main_arg1 : FVec F S128x128x8x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S128x128x8x8 .f32 := Host.absf main_arg1
  let main_cst_0 : FVec F S_ .f32 := constant S_ .f32 0x7F800000#32
  let main_v5 : FVec F S128x128x8x8 .f32 := broadcastInDim S128x128x8x8 ![] bcast_S_S128x128x8x8 main_cst_0
  let main_v6 : IVec S128x128x8x8 1 := cmpf .olt main_v4 main_v5
  let main_c_1 : IVec S_ 1 := constantI S_ 1 1#1
  let main_v7 : IVec S_ 1 := (fun x v => Host.reduce IntOp.andi x v reducesTo_S128x128x8x8_S_d0_1_2_3 h_S_) main_v6 main_c_1
  let main_v8 : IVec S_ 1 := andi main_v3 main_v7
  main_v8
-- ==== Kernel.lean ====
abbrev S16384x1024 : Shape := ⟨2, ![16384, 1024]⟩
abbrev S128x128x8x8 : Shape := ⟨4, ![128, 128, 8, 8]⟩
abbrev S128x8x128x8 : Shape := ⟨4, ![128, 8, 128, 8]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S128x128x8x8, .f32⟩
  | .hbm, ⟨2, _⟩ => ⟨S128x8x128x8, .f32⟩
  | .hbm, ⟨3, _⟩ => ⟨S1024x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x128x8x8_S128x8x128x8_1_3_0_2 : S128x128x8x8.Transposes [1, 3, 0, 2] S128x8x128x8
  shapeCasts_S128x8x128x8_S1024x1024 : S128x8x128x8.ShapeCasts S1024x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S128x128x8x8 : Shape := ⟨4, ![128, 128, 8, 8]⟩
abbrev S128x8x128x8 : Shape := ⟨4, ![128, 8, 128, 8]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x128x8x8, .f32⟩
  | .hbm, ⟨2, _⟩ => ⟨S128x8x128x8, .f32⟩
  | .hbm, ⟨3, _⟩ => ⟨S1024x1024, .f32⟩
  | .hbm, ⟨4, _⟩ => ⟨S16384x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩

abbrev nD : Nat := 1
abbrev τ : Topo := Topo.v7x

variable {F : FTy → Type} [FloatOps F]

class Facts₀ : Prop where
  transposes_S128x128x8x8_S128x8x128x8_0_2_1_3 : S128x128x8x8.Transposes [0, 2, 1, 3] S128x8x128x8
  shapeCasts_S128x8x128x8_S1024x1024 : S128x8x128x8.ShapeCasts S1024x1024
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Spec.lean ====
/-
  A DENSE LAYER WHOSE WEIGHT IS STORED AS A GRID OF 8 x 8 TILES, CLIPPED TO [0, 6].

  The weight of a 1024 -> 1024 linear layer is kept as w[P, Q, a, b] with P, Q < 128 and a, b < 8: entry (o, k) of the
  dense matrix W (output channel o, input channel k) is w[o / 8, k / 8, o % 8, k % 8]. The layer sends a batch x of
  16384 rows to
      y[n, o] = min(6, max(0, sum_k x[n, k] * W[o, k])).
  This file states that function once (clipDense), on the extended reals, with the two clip bounds kept as the words
  the programs print, and reads one spelling of a row block of it at an entry: a 1024 x 1024 by 1024 x 1024 matrix
  product accumulated into a zero matrix, then the maximum with a splat lower bound and the minimum with a splat upper
  bound (clip_matmul_apply). Row n of y depends on row n of x only, and every row uses the whole of W.
-/
import Idealize.ShloMosaic.PureOps
import Idealize.ShloMosaic.PureOps.Ideal
import Idealize.ShloMosaic.PureOps.Ideal.Laws
import Idealize.ShloMosaic.Lib.ValueIdx
import Idealize.ShloMosaic.Lib.KernelVsHost
import Idealize.ShloMosaic.Lib.StackMember

noncomputable section

open scoped BigOperators

namespace Cert.TiledDense

open Idealize.ShloMosaic Idealize.ShloMosaic.ValueIdx

/-- Where entry (o, k) of the dense weight sits in the tiled storage: tile (o / 8, k / 8), position (o % 8, k % 8). -/
abbrev tileIx (o k : Fin 1024) : (⟨4, ![128, 128, 8, 8]⟩ : Shape).Idx :=
  ix4 (⟨o.val / 8, by have := o.isLt; omega⟩ : Fin 128) (⟨k.val / 8, by have := k.isLt; omega⟩ : Fin 128)
    (⟨o.val % 8, by omega⟩ : Fin 8) (⟨k.val % 8, by omega⟩ : Fin 8)

/-- The layer: each entry the row of x against the row of the dense weight, clipped below at the word 0x00000000 (zero)
    and above at the word 0x40C00000 (six). -/
def clipDense (x : FVec Ideal ⟨2, ![16384, 1024]⟩ .f32) (w : FVec Ideal ⟨4, ![128, 128, 8, 8]⟩ .f32) :
    FVec Ideal ⟨2, ![16384, 1024]⟩ .f32 :=
  fun i => min (Ideal.ofBits .f32 0x40C00000#32)
    (max (Ideal.ofBits .f32 0x00000000#32) (∑ k : Fin 1024, x (ix2 (i 0) k) * w (tileIx (i 1) k)))

/-- A matrix product accumulated into the zero matrix, then clipped between two splat bounds, read at entry (p, q):
    the sum over the contracted coordinate of the products of the entries, clipped. The operands may be of any float
    formats: on the extended reals a format is no restriction. -/
theorem clip_matmul_apply {φ₁ φ₂ : FTy} (d : DotDims ⟨2, ![1024, 1024]⟩ ⟨2, ![1024, 1024]⟩ ⟨2, ![1024, 1024]⟩)
    (hd : d = DotDims.plain 1024 1024 1024) (lo hi : BitVec 32)
    (X : FVec Ideal ⟨2, ![1024, 1024]⟩ φ₁) (Y : FVec Ideal ⟨2, ![1024, 1024]⟩ φ₂) (p q : Fin 1024) :
    minimumf (broadcast ⟨2, ![1024, 1024]⟩ (Scalar.ofBits (F := Ideal) .f32 hi))
        (maximumf (broadcast ⟨2, ![1024, 1024]⟩ (Scalar.ofBits (F := Ideal) .f32 lo))
          (matmul d none X Y (constant ⟨2, ![1024, 1024]⟩ .f32 0x00000000#32))) (ix2 p q)
      = min (Ideal.ofBits .f32 hi) (max (Ideal.ofBits .f32 lo) (∑ k : Fin 1024, X (ix2 p k) * Y (ix2 k q))) := by
  subst hd
  show min (Ideal.ofBits .f32 hi) (max (Ideal.ofBits .f32 lo)
    (matmul (DotDims.plain 1024 1024 1024) none X Y (constant ⟨2, ![1024, 1024]⟩ .f32 0x00000000#32) (ix2 p q))) = _
  rw [congrFun (matmul_zero_eq_dotGeneral (DotDims.plain 1024 1024 1024) none X Y) (ix2 p q),
    StackMember.dotGeneral_plain_apply]

end Cert.TiledDense

end
-- ==== Proof.RefValue.lean ====
/-
  THE REFERENCE COMPUTES THE TILED DENSE LAYER.

  The reference lays the tiles out as the dense matrix W[o, k] (a transpose that brings the two tile coordinates of the
  output channel together, then a reshape), contracts x[n, k] with W[o, k] over k, and clips. Read at an entry: the
  reshape sends (o, k) to position o * 1024 + k of the row-major order, which in the transposed array is
  (o / 8, o % 8, k / 8, k % 8); the transpose reads the stored tile at (o / 8, k / 8, o % 8, k % 8). That is the
  function clipDense, term by term of the sum.
-/
import proofs.«142880_j24936580121058_1_alg».proof.Proof.Gen.ReferenceIdeal.Read
import proofs.«142880_j24936580121058_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.TiledDense

/-- The right operand of the contraction at (o, k), followed back through the reshape and the transpose, is the stored
    tile entry of (o, k). -/
theorem weight_idx (i : S16384x1024.Idx) (k : Fin 1024) :
    idx_main_v0 (idx_main_v1 (ridx_main_v2 i k)) = tileIx (i 1) k := by
  have h1 : (i 1).val < 1024 := (i 1).isLt
  have hk : k.val < 1024 := k.isLt
  funext a
  apply Fin.ext
  match a with
  | ⟨0, _⟩ => show ((i 1).val * 1024 + k.val) / 8192 = (i 1).val / 8; omega
  | ⟨1, _⟩ => show ((i 1).val * 1024 + k.val) / 8 % 128 = k.val / 8; omega
  | ⟨2, _⟩ => show ((i 1).val * 1024 + k.val) / 1024 % 8 = (i 1).val % 8; omega
  | ⟨3, _⟩ => show ((i 1).val * 1024 + k.val) % 8 = k.val % 8; omega

/-- The left operand of the contraction at (n, k) is x at (n, k). -/
theorem input_idx (i : S16384x1024.Idx) (k : Fin 1024) : lidx_main_v2 i k = ix2 (i 0) k :=
  funext fun a => Fin.ext (by match a with | ⟨0, _⟩ => rfl | ⟨1, _⟩ => rfl)

/-- The reference's result, as a function of its two arguments, is the tiled dense layer. -/
theorem ref_is_clipDense (x0 : (⟨S16384x1024, .f32⟩ : BufTy).Contents (Elt Ideal))
    (x1 : (⟨S128x128x8x8, .f32⟩ : BufTy).Contents (Elt Ideal)) :
    val_main_v3 (F := Ideal) x0 x1 = clipDense x0 x1 := by
  funext i
  rw [val_main_v3_apply, val_main_call0_v4_apply, val_main_call0_v3_apply, val_main_cst_0_apply,
    val_main_call0_v2_apply, val_main_call0_v1_apply, val_main_call0_v0_apply, val_main_cst_apply, val_main_v2_apply]
  unfold clipDense
  show min (Ideal.ofBits .f32 0x40C00000#32) (max (Ideal.ofBits .f32 0x00000000#32) _) = _
  refine congrArg (fun s => min (Ideal.ofBits .f32 0x40C00000#32) (max (Ideal.ofBits .f32 0x00000000#32) s))
    (Finset.sum_congr rfl fun k _ => ?_)
  rw [val_main_v1_apply, val_main_v0_apply, weight_idx, input_idx]
  rfl

end Cert.ReferenceIdeal.RefValue

end
-- ==== Proof.KernelValue.lean ====
/-
  THE KERNEL COMPUTES THE TILED DENSE LAYER.

  Before the region the host lays the tiles out as the TRANSPOSED dense matrix WT[k, o] = W[o, k] (a transpose that
  brings the two tile coordinates of the input channel together, then a reshape): position k * 1024 + o of the row-major
  order is (k / 8, k % 8, o / 8, o % 8) in the transposed array, which reads the stored tile at
  (o / 8, k / 8, o % 8, k % 8). The grid has 16 points; point t takes rows 1024 t .. 1024 t + 1023 of x and the whole of
  WT, multiplies them into a zero accumulator, clips, and writes rows 1024 t .. 1024 t + 1023 of the result. Row n of the
  layer depends on row n of x only, so what point t writes back is its block of rows of clipDense; the 16 blocks of rows
  cover the result array, which therefore ends holding clipDense of the two arguments.
-/
import proofs.«142880_j24936580121058_1_alg».proof.Proof.Gen.KernelIdeal.Value
import proofs.«142880_j24936580121058_1_alg».proof.Proof.Spec
import Idealize.ShloMosaic.Lib.Pipeline.Value
import Idealize.ShloMosaic.Lib.StableHlo.Run

noncomputable section

open scoped BigOperators

namespace Cert.KernelIdeal.KernelValue

open Cert.KernelIdeal Cert.KernelIdeal.Gen Cert.KernelIdeal.Value
open Idealize.ShloMosaic Idealize.ShloMosaic.TcCoe Idealize.SL.Sem Idealize.ShloMosaic.ValueIdx Cert.TiledDense
open Idealize.ShloMosaic.Pipeline (Dat)

variable (m : (ℓ : Loc nD τ sig) → Buf (Elt Ideal) ℓ) (ρ : Dev nD → PrngReg)

/-! ## The body at an entry -/

/-- The body's one stored value at entry (p, q) of the block: the row p of the first loaded block against the column q
    of the second, clipped. The narrowing of both operands to a shorter float format changes nothing on the extended
    reals, and the shape cast is to the same shape. -/
theorem pay_apply (x0 x1 : Vec Ideal S1024x1024 .f32) (p q : Fin 1024) :
    k0_pay1 (F := Ideal) x0 x1 (ix2 p q)
      = min (Ideal.ofBits .f32 0x40C00000#32)
          (max (Ideal.ofBits .f32 0x00000000#32) (∑ k : Fin 1024, x0 (ix2 p k) * x1 (ix2 k q))) := by
  unfold k0_pay1
  rw [shapeCast_self]
  exact clip_matmul_apply _ rfl _ _ _ _ p q

/-- The body's stored value at an entry y of the block is the layer at an entry i of the array, when the first block's
    row (y 0) is x's row (i 0), the second block is the transposed dense weight, and the column is the same. -/
theorem block_entry (X : FVec Ideal S16384x1024 .f32) (W : FVec Ideal S128x128x8x8 .f32)
    (x0 x1 : Vec Ideal S1024x1024 .f32) (y : S1024x1024.Idx) (i : S16384x1024.Idx)
    (hx : ∀ k : Fin 1024, x0 (ix2 (y 0) k) = X (ix2 (i 0) k))
    (hw : ∀ k o : Fin 1024, x1 (ix2 k o) = W (tileIx o k))
    (hcol : (i 1).val = (y 1).val) :
    k0_pay1 (F := Ideal) x0 x1 y = clipDense X W i := by
  obtain ⟨p, q, rfl⟩ : ∃ (p q : Fin 1024), y = ix2 p q := ⟨y 0, y 1, eq_ix2 y⟩
  have hx' : ∀ k : Fin 1024, x0 (ix2 p k) = X (ix2 (i 0) k) := hx
  have hq : i 1 = q := Fin.ext hcol
  rw [pay_apply]
  unfold clipDense
  refine congrArg (fun s => min (Ideal.ofBits .f32 0x40C00000#32) (max (Ideal.ofBits .f32 0x00000000#32) s))
    (Finset.sum_congr rfl fun k _ => ?_)
  rw [hx' k, hw k q, hq]

/-! ## The second operand: the transposed dense weight -/

/-- What the region finds in the second operand's array: the host's transpose and reshape of the stored tiles. -/
theorem wt_eq (c : Dev nD) :
    (V m c main_v1 : S1024x1024.Idx → EReal)
      = shapeCast S1024x1024 (transpose S128x8x128x8 [1, 3, 0, 2] (m ((c : Thread nD τ).loc main_arg1))
          transposes_S128x128x8x8_S128x8x128x8_1_3_0_2) shapeCasts_S128x8x128x8_S1024x1024 := by
  dsimp only [V, hostOps0]
  after_results
  rfl

/-- Its entry (k, o) is the stored tile entry of (o, k). -/
theorem wt_apply (c : Dev nD) (k o : Fin 1024) :
    (V m c main_v1 : S1024x1024.Idx → EReal) (ix2 k o)
      = (m ((c : Thread nD τ).loc main_arg1) : S128x128x8x8.Idx → EReal) (tileIx o k) := by
  have hk : k.val < 1024 := k.isLt
  have ho : o.val < 1024 := o.isLt
  rw [wt_eq]
  refine (shapeCast_apply _ shapeCasts_S128x8x128x8_S1024x1024 (ix2 k o)
    (ix4 (⟨k.val / 8, by omega⟩ : Fin 128) (⟨k.val % 8, by omega⟩ : Fin 8) (⟨o.val / 8, by omega⟩ : Fin 128)
      (⟨o.val % 8, by omega⟩ : Fin 8)) ?_).trans ?_
  · rewrite [Shape.rowMajor_val_four, Shape.rowMajor_val_two]
    show ((k.val / 8 * 8 + k.val % 8) * 128 + o.val / 8) * 8 + o.val % 8 = k.val * 1024 + o.val
    omega
  · exact transpose_apply [1, 3, 0, 2] _ transposes_S128x128x8x8_S128x8x128x8_1_3_0_2 _ (tileIx o k) (fun b => match b with
      | ⟨0, _⟩ => rfl
      | ⟨1, _⟩ => rfl
      | ⟨2, _⟩ => rfl
      | ⟨3, _⟩ => rfl)

/-! ## From the blocks to the array -/

theorem zero_offsets : (![0, 0] : Fin 2 → Nat) = fun _ => 0 := funext fun a => by fin_cases a <;> rfl

/-- The printed index maps over the 16 grid points: the input rows and the output rows move together, block t at
    point t; the weight's block and every column block index stay 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its block of rows of the layer of the two arguments. -/
theorem rows_written (c : Dev nD) (t : Fin cfg0.N) :
    (dats m 0 c).flushed 2 t = ((cfg0.win 2).blk t).view.read (Elt Ideal)
      (clipDense (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero_offsets]
  simp only [View.ld_unit_zero (S := S1024x1024) zero_offsets]
  obtain ⟨e0, e1, e2, e3, e4, e5⟩ := block_indices t
  funext j
  show k0_pay1 (F := Ideal) (iblk m c 0 t) (iblk m c 1 t) j
    = clipDense (m ((c : Thread nD τ).loc main_arg0)) (m ((c : Thread nD τ).loc main_arg1)) (((cfg0.win 2).blk t).view.emb j)
  refine block_entry (m ((c : Thread nD τ).loc main_arg0)) (m ((c : Thread nD τ).loc main_arg1)) (iblk m c 0 t) (iblk m c 1 t) j
    (((cfg0.win 2).blk t).view.emb j) ?_ ?_ ?_
  · intro k
    show V m c main_arg0 (((cfg0.win 0).blk t).view.emb (ix2 (j 0) k)) = _
    rw [V_main_arg0]
    refine congrArg (m ((c : Thread nD τ).loc main_arg0)) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · intro k o
    show V m c main_v1 (((cfg0.win 1).blk t).view.emb (ix2 k o)) = _
    refine Eq.trans (congrArg (V m c main_v1) (funext fun a => Fin.ext ?_)) (wt_apply m c k o)
    match a with
    | ⟨0, _⟩ => show win0_1.index t (0 : Fin 2) * 1024 + 1 * k.val = k.val; omega
    | ⟨1, _⟩ => show win0_1.index t (1 : Fin 2) * 1024 + 1 * o.val = o.val; omega
  · show win0_2.index t (1 : Fin 2) * 1024 + 1 * (j 1).val = (j 1).val
    omega

/-- An index of the result array is in point t's block iff each coordinate is in the block's range on its axis. -/
theorem mem_rows (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the result array is in the block of the point its row falls in: row n in block n / 1024. -/
theorem rows_cover (i : S16384x1024.Idx) :
    ∃ t : Fin cfg0.N, (cfg0.win 2).flush t = true ∧ i ∈ ((cfg0.win 2).blk t).view.set := by
  have h0 : (i 0).val < 16384 := (i 0).isLt
  have h1 : (i 1).val < 1024 := (i 1).isLt
  have hN : cfg0.N = 16 := N_0
  refine ⟨⟨(i 0).val / 1024, by rw [hN]; omega⟩, flush0_2 _, ?_⟩
  obtain ⟨e0, e1, e2, e3, e4, e5⟩ := block_indices ⟨(i 0).val / 1024, by rw [hN]; omega⟩
  rw [mem_rows]
  intro a
  match a with
  | ⟨0, _⟩ =>
    show win0_2.index ⟨(i 0).val / 1024, _⟩ (0 : Fin 2) * 1024 ≤ (i 0).val
      ∧ (i 0).val < win0_2.index ⟨(i 0).val / 1024, _⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, _⟩ (1 : Fin 2) * 1024 ≤ (i 1).val
      ∧ (i 1).val < win0_2.index ⟨(i 0).val / 1024, _⟩ (1 : Fin 2) * 1024 + 1024
    rw [e5]
    omega

/-- So the result array ends holding the layer of the two arguments. -/
theorem result_array (c : Dev nD) :
    (dats m 0 c).arrAt 2 cfg0.N = clipDense (m ((c : Thread nD τ).loc main_arg0)) (m ((c : Thread nD τ).loc main_arg1)) :=
  (dats m 0 c).arrAt_eq_of_cover 2 _ (fun t _ => rows_written m c t) rows_cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2)
        = clipDense (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.KernelValue

end
-- ==== Proof.lean ====
/- The proof of `Cert.Claim` (proofs.«142880_j24936580121058_1_alg».proof.Defs): frame_Kernel ∧ frame_KernelIdeal ∧ frame_ReferenceIdeal ∧
   preserves_Kernel_KernelIdeal ∧ algebraic_KernelIdeal_ReferenceIdeal.

   Both programs compute a 1024 -> 1024 linear layer whose weight is stored as 128 x 128 tiles of 8 x 8, followed by a
   clip to [0, 6]:  y[n, o] = min(6, max(0, sum_k x[n, k] * w[o / 8, k / 8, o % 8, k % 8]))  (Proof/Spec.lean, clipDense).
   The reference assembles the dense matrix W[o, k] and contracts x[n, k] with W[o, k] over k (Proof/RefValue.lean). The
   kernel assembles the transposed matrix WT[k, o] on the host, and at each of 16 grid points multiplies a block of 1024
   rows of x by WT into a zero accumulator and clips it (Proof/KernelValue.lean); narrowing the operands to a shorter
   float format is the identity on the extended reals. The two sums have the same terms in the same order and the clip
   bounds are the same two words, so no law of the extended reals beyond 0 + s = s is used and the finiteness of the
   inputs is never opened. The three frames are the generated ones (the reference's is its generated run with the
   result dropped); the idealization pass rewrote nothing, so preserves is trivial. -/
import proofs.«142880_j24936580121058_1_alg».proof.Defs
import proofs.«142880_j24936580121058_1_alg».proof.Proof.Gen.Kernel
import proofs.«142880_j24936580121058_1_alg».proof.Proof.Gen.Kernel.Skeleton
import proofs.«142880_j24936580121058_1_alg».proof.Proof.Gen.Kernel.Launch
import proofs.«142880_j24936580121058_1_alg».proof.Proof.Gen.Kernel.Points
import proofs.«142880_j24936580121058_1_alg».proof.Proof.Gen.Kernel.Frame
import proofs.«142880_j24936580121058_1_alg».proof.Proof.Gen.KernelIdeal
import proofs.«142880_j24936580121058_1_alg».proof.Proof.Gen.KernelIdeal.Skeleton
import proofs.«142880_j24936580121058_1_alg».proof.Proof.Gen.KernelIdeal.Launch
import proofs.«142880_j24936580121058_1_alg».proof.Proof.Gen.KernelIdeal.Points
import proofs.«142880_j24936580121058_1_alg».proof.Proof.Gen.KernelIdeal.Frame
import proofs.«142880_j24936580121058_1_alg».proof.Proof.Gen.ReferenceIdeal
import proofs.«142880_j24936580121058_1_alg».proof.Proof.Gen.KernelIdeal.Value
import proofs.«142880_j24936580121058_1_alg».proof.Proof.Gen.ReferenceIdeal.Run
import proofs.«142880_j24936580121058_1_alg».proof.Proof.Gen.ReferenceIdeal.Read
import proofs.«142880_j24936580121058_1_alg».proof.Proof.Gen.Pre_finite_inputs
import proofs.«142880_j24936580121058_1_alg».proof.Proof.Spec
import proofs.«142880_j24936580121058_1_alg».proof.Proof.RefValue
import proofs.«142880_j24936580121058_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the tiled dense layer of arguments that agree. -/
theorem algebraic : Cert.algebraic_KernelIdeal_ReferenceIdeal := by
  intro m ρ m' ρ' _ hagree
  refine ⟨fun c => Cert.TiledDense.clipDense (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_is_clipDense, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
